-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x7 : Shape := ⟨2, ![1600000, 7]⟩
abbrev S100000 : Shape := ⟨1, ![100000]⟩
abbrev S1600000x1 : Shape := ⟨2, ![1600000, 1]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x7 : S_.BroadcastsInDim S1600000x7 (![] : Fin 0 → Fin S1600000x7.rank)
  reducesTo_S1600000x7_S_d0_1 : S1600000x7.ReducesTo [0, 1] S_
  bcast_S_S100000 : S_.BroadcastsInDim S100000 (![] : Fin 0 → Fin S100000.rank)
  reducesTo_S100000_S_d0 : S100000.ReducesTo [0] S_
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg9 : FVec F S128 .f32) (main_arg10 : FVec F S1x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x7 .f32) (main_arg9 : FVec F S128 .f32) (main_arg10 : FVec F S1x128 .f32) (main_v13 : IVec S_ 1) (main_v16 : IVec S1600000x1 1) : IVec S_ 1 :=
  let main_c_5 : IVec S_ 1 := constantI S_ 1 1#1
  let main_v17 : IVec S_ 1 := (fun x v => Host.reduce IntOp.andi x v reducesTo_S1600000x1_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x7 .f32 := Host.absf main_arg8
  let main_cst_10 : FVec F S_ .f32 := constant S_ .f32 0x7F800000#32
  let main_v30 : FVec F S128x7 .f32 := broadcastInDim S128x7 ![] bcast_S_S128x7 main_cst_10
  let main_v31 : IVec S128x7 1 := cmpf .olt main_v29 main_v30
  let main_c_11 : IVec S_ 1 := constantI S_ 1 1#1
  let main_v32 : IVec S_ 1 := (fun x v => Host.reduce IntOp.andi x v reducesTo_S128x7_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : FVec F S1600000x7 .f32) (main_arg2 : FVec F S100000 .f32) (main_arg3 : FVec F S1600000x1 .f32) (main_arg4 : IVec S1600000 32) (main_arg5 : IVec S1600000 32) (main_arg6 : FVec F S128x128 .f32) (main_arg7 : FVec F S128 .f32) (main_arg8 : FVec F S128x7 .f32) (main_arg9 : FVec F S128 .f32) (main_arg10 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x7 .f32 := Host.absf main_arg1
  let main_cst_0 : FVec F S_ .f32 := constant S_ .f32 0x7F800000#32
  let main_v5 : FVec F S1600000x7 .f32 := broadcastInDim S1600000x7 ![] bcast_S_S1600000x7 main_cst_0
  let main_v6 : IVec S1600000x7 1 := cmpf .olt main_v4 main_v5
  let main_c_1 : IVec S_ 1 := constantI S_ 1 1#1
  let main_v7 : IVec S_ 1 := (fun x v => Host.reduce IntOp.andi x v reducesTo_S1600000x7_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1600000x1 .f32 := Host.absf main_arg3
  let main_cst_4 : FVec F S_ .f32 := constant S_ .f32 0x7F800000#32
  let main_v15 : FVec F S1600000x1 .f32 := broadcastInDim S1600000x1 ![] bcast_S_S1600000x1 main_cst_4
  let main_v16 : IVec S1600000x1 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000x7 : Shape := ⟨2, ![1600000, 7]⟩
abbrev S100000 : Shape := ⟨1, ![100000]⟩
abbrev S1600000x1 : Shape := ⟨2, ![1600000, 1]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S1x128 : Shape := ⟨2, ![1, 128]⟩
abbrev S7x128 : Shape := ⟨2, ![7, 128]⟩
abbrev S5000x128 : Shape := ⟨2, ![5000, 128]⟩
abbrev S_ : Shape := ⟨0, ![]⟩
abbrev S1600000x128 : Shape := ⟨2, ![1600000, 128]⟩
abbrev S6400x128 : Shape := ⟨2, ![6400, 128]⟩
abbrev S6400x7 : Shape := ⟨2, ![6400, 7]⟩
abbrev S6400x1 : Shape := ⟨2, ![6400, 1]⟩
abbrev S100000x1 : Shape := ⟨2, ![100000, 1]⟩

abbrev nBuf : Space → Nat
  | .hbm => 35
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S1600000x7, .f32⟩
  | .hbm, ⟨2, _⟩ => ⟨S100000, .f32⟩
  | .hbm, ⟨3, _⟩ => ⟨S1600000x1, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x7, .f32⟩
  | .hbm, ⟨9, _⟩ => ⟨S128, .f32⟩
  | .hbm, ⟨10, _⟩ => ⟨S1x128, .f32⟩
  | .hbm, ⟨11, _⟩ => ⟨S128x128, .f32⟩
  | .hbm, ⟨12, _⟩ => ⟨S7x128, .f32⟩
  | .hbm, ⟨13, _⟩ => ⟨S1x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S6400x128, .f32⟩
  | .local _ .vmem, ⟨10, _⟩ => ⟨S6400x128, .f32⟩
  | .local _ .vmem, ⟨11, _⟩ => ⟨S6400x7, .f32⟩
  | .local _ .vmem, ⟨12, _⟩ => ⟨S6400x7, .f32⟩
  | .local _ .vmem, ⟨13, _⟩ => ⟨S6400x1, .f32⟩
  | .local _ .vmem, ⟨14, _⟩ => ⟨S6400x1, .f32⟩
  | .local _ .vmem, ⟨15, _⟩ => ⟨S7x128, .f32⟩
  | .local _ .vmem, ⟨16, _⟩ => ⟨S1x128, .f32⟩
  | .local _ .vmem, ⟨17, _⟩ => ⟨S6400x128, .f32⟩
  | .local _ .vmem, ⟨18, _⟩ => ⟨S6400x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S7x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  transposes_S128x7_S7x128_1_0 : S128x7.Transposes [1, 0] S7x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x7_S6400x7_0_0 : ∀ a, (![0, 0] : Fin 2 → Nat) a + S6400x7.size a ≤ S6400x7.size a
  h_S6400x7 : 0 < S6400x7.numel
  inb_S7x128_S7x128_0_0 : ∀ a, (![0, 0] : Fin 2 → Nat) a + S7x128.size a ≤ S7x128.size a
  h_S7x128 : 0 < S7x128.numel
  shapeCasts_S7x128_S7x128 : S7x128.ShapeCasts S7x128
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  broadcasts_S6400x1_S6400x128 : S6400x1.Broadcasts S6400x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  dot_S6400x7_S7x128_S6400x128_1_0_0_1_n_n_wf : DotDims.WF S6400x7 S7x128 S6400x128 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S1600000x128.size a
  hwx1_0 : ∀ i : grid1.Coords, EltTy.bits .f32 = 32 ∨ (Rect.block (s := S1600000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x7.size a ≤ S1600000x7.size a
  hwx1_1 : ∀ i : grid1.Coords, EltTy.bits .f32 = 32 ∨ (Rect.block (s := S1600000x7) S6400x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x1.size a ≤ S1600000x1.size a
  hwx1_2 : ∀ i : grid1.Coords, EltTy.bits .f32 = 32 ∨ (Rect.block (s := S1600000x1) S6400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S7x128.size a ≤ S7x128.size a
  hwx1_3 : ∀ i : grid1.Coords, EltTy.bits .f32 = 32 ∨ (Rect.block (s := S7x128) S7x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x128.size a ≤ S1600000x128.size a
  hwx1_5 : ∀ i : grid1.Coords, EltTy.bits .f32 = 32 ∨ (Rect.block (s := S1600000x128) S6400x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S6400x7_S7x128_S6400x128_1_0_0_1_n_n : DotDims S6400x7 S7x128 S6400x128 where
  lhsContracting := [1]
  rhsContracting := [0]
  lhsNonContracting := [0]
  rhsNonContracting := [1]
  lhsBatch := []
  rhsBatch := []
  wf := dot_S6400x7_S7x128_S6400x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S7x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S6400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x7 : Shape := ⟨2, ![1600000, 7]⟩
abbrev S100000 : Shape := ⟨1, ![100000]⟩
abbrev S1600000x1 : Shape := ⟨2, ![1600000, 1]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S1x128 : Shape := ⟨2, ![1, 128]⟩
abbrev S7x128 : Shape := ⟨2, ![7, 128]⟩
abbrev S1600000x128 : Shape := ⟨2, ![1600000, 128]⟩
abbrev S_ : Shape := ⟨0, ![]⟩
abbrev S100000x1 : Shape := ⟨2, ![100000, 1]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x7, .f32⟩
  | .hbm, ⟨2, _⟩ => ⟨S100000, .f32⟩
  | .hbm, ⟨3, _⟩ => ⟨S1600000x1, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x7, .f32⟩
  | .hbm, ⟨9, _⟩ => ⟨S128, .f32⟩
  | .hbm, ⟨10, _⟩ => ⟨S1x128, .f32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S7x128, .f32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x7_S7x128_1_0 : S128x7.Transposes [1, 0] S7x128
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  dot_S1600000x7_S7x128_S1600000x128_1_0_0_1_n_n_wf : DotDims.WF S1600000x7 S7x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x7_S7x128_S1600000x128_1_0_0_1_n_n : DotDims S1600000x7 S7x128 S1600000x128 where
  lhsContracting := [1]
  rhsContracting := [0]
  lhsNonContracting := [0]
  rhsNonContracting := [1]
  lhsBatch := []
  rhsBatch := []
  wf := dot_S1600000x7_S7x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.NodePayload.lean ====
import proofs.«158468_j20864951124336_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphConv

open Idealize.ShloMosaic Idealize.ShloMosaic.ValueIdx Cert.KernelIdeal Cert.KernelIdeal.Gen

/-! ## The node kernel's product, one element at a time

The product contracts axis 1 of the feature block with axis 0 of the weight. Its left operand index at output
index `i` and contraction index `r` is `(i 0, r)`, its right operand index is `(r, i 1)`: one lemma per axis. -/

/-- Axis 0 of the left operand's index is the output's row. -/
private theorem lhs_node_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- Axis 1 of the left operand's index is the contraction coordinate. -/
private theorem lhs_node_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

/-- Axis 0 of the right operand's index is the contraction coordinate. -/
private theorem rhs_node_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

/-- Axis 1 of the right operand's index is the output's column. -/
private theorem rhs_node_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into zero, at `(p, q)`: row `p` of the left operand against column `q` of the right,
    summed over the 128 contraction coordinates. -/
private theorem node_matmul_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-- One element of the node kernel's first stored value: row `p` of the feature block times column `q` of the
    transposed weight, plus the bias entry of column `q`. -/
theorem node_payload_at (xb : FVec Ideal S5000x128 .f32) (wt : FVec Ideal S128x128 .f32) (b2 : FVec Ideal S1x128 .f32)
    (p : Fin 5000) (q : Fin 128) :
    k0_pay1 (F := Ideal) xb wt b2 (ix2 p q)
      = (∑ k : Fin 128, xb (ix2 p k) * wt (ix2 k q)) + b2 (ix2 (0 : Fin 1) q) := by
  unfold k0_pay1
  -- the two same-shape casts are the identity, and narrowing the format changes no value
  simp only [shapeCast_self]
  rw [addf_apply, node_matmul_at, broadcastTo_1b_ab_apply]
  simp only [truncf_apply]

/-- One element of the node kernel's second stored value: the first one plus the root embedding's entry of
    column `q`, clipped below at zero. -/
theorem root_payload_at (xb : FVec Ideal S5000x128 .f32) (wt : FVec Ideal S128x128 .f32) (b2 : FVec Ideal S1x128 .f32)
    (re : FVec Ideal S1x128 .f32) (p : Fin 5000) (q : Fin 128) :
    k0_pay2 (F := Ideal) xb wt b2 re (ix2 p q)
      = max (k0_pay1 (F := Ideal) xb wt b2 (ix2 p q) + re (ix2 (0 : Fin 1) q)) (Ideal.ofBits .f32 0x00000000#32) := by
  unfold k0_pay2
  rw [maximumf_apply, addf_apply, broadcast_apply, broadcastTo_1b_ab_apply]
  rfl

end Cert.GraphConv

end
-- ==== Proof.RefAt.lean ====
import proofs.«158468_j20864951124336_1_alg».proof.Proof.Gen.ReferenceIdeal.Read
import Idealize.ShloMosaic.Lib.ValueIdx
import Idealize.ShloMosaic.PureOps.Ideal.Laws

noncomputable section

open scoped BigOperators

namespace Cert.GraphConv

open Idealize.ShloMosaic Idealize.ShloMosaic.ValueIdx Cert.ReferenceIdeal Cert.ReferenceIdeal.Read

/-! ## The reference's composed index functions at explicit coordinates -/

/-- The left operand of the node product is read along row `r`. -/
private theorem lidx_v1_at (r : Fin 100000) (q k : Fin 128) : lidx_main_v1 (ix2 r q) k = ix2 r k :=
  funext fun a => Fin.ext (by match a with | ⟨0, _⟩ => rfl | ⟨1, _⟩ => rfl)

/-- The right operand of the node product is read down column `q`. -/
private theorem ridx_v1_at (r : Fin 100000) (q k : Fin 128) : ridx_main_v1 (ix2 r q) k = ix2 k q :=
  funext fun a => Fin.ext (by match a with | ⟨0, _⟩ => rfl | ⟨1, _⟩ => rfl)

/-- The node bias, broadcast twice, is read at the column. -/
private theorem idx_v2_v3_at (r : Fin 100000) (q : Fin 128) : idx_main_v2 (idx_main_v3 (ix2 r q)) = ix1 q :=
  funext fun a => Fin.ext (by match a with | ⟨0, _⟩ => rfl)

/-- The root embedding's single row, broadcast over the nodes, is read at the column. -/
private theorem idx_v24_at (r : Fin 100000) (q : Fin 128) : idx_main_v24 (ix2 r q) = ix2 (0 : Fin 1) q :=
  funext fun a => Fin.ext (by match a with | ⟨0, _⟩ => rfl | ⟨1, _⟩ => rfl)

/-- The left operand of the edge product is read along row `r`. -/
private theorem lidx_v6_at (r : Fin 1600000) (q : Fin 128) (k : Fin 7) : lidx_main_v6 (ix2 r q) k = ix2 r k :=
  funext fun a => Fin.ext (by match a with | ⟨0, _⟩ => rfl | ⟨1, _⟩ => rfl)

/-- The right operand of the edge product is read down column `q`. -/
private theorem ridx_v6_at (r : Fin 1600000) (q : Fin 128) (k : Fin 7) : ridx_main_v6 (ix2 r q) k = ix2 k q :=
  funext fun a => Fin.ext (by match a with | ⟨0, _⟩ => rfl | ⟨1, _⟩ => rfl)

/-- The edge bias, broadcast twice, is read at the column. -/
private theorem idx_v7_v8_at (r : Fin 1600000) (q : Fin 128) : idx_main_v7 (idx_main_v8 (ix2 r q)) = ix1 q :=
  funext fun a => Fin.ext (by match a with | ⟨0, _⟩ => rfl)

/-- The per-edge weight's single column, broadcast over the features, is read at the row. -/
private theorem idx_v19_at (r : Fin 1600000) (q : Fin 128) : idx_main_v19 (ix2 r q) = ix2 r (0 : Fin 1) :=
  funext fun a => Fin.ext (by match a with | ⟨0, _⟩ => rfl | ⟨1, _⟩ => rfl)

/-- The reference's node features at row `r`, column `q`: the row of `x0` times column `q` of the transposed
    weight, plus the bias entry. -/
theorem ref_node_at (x0 : (⟨S100000x128, .f32⟩ : BufTy).Contents (Elt Ideal)) (x6 : (⟨S128x128, .f32⟩ : BufTy).Contents (Elt Ideal))
    (x7 : (⟨S128, .f32⟩ : BufTy).Contents (Elt Ideal)) (r : Fin 100000) (q : Fin 128) :
    val_main_v4 (F := Ideal) x0 x6 x7 (ix2 r q)
      = (∑ k : Fin 128, x0 (ix2 r k) * val_main_v0 (F := Ideal) x6 (ix2 k q)) + x7 (ix1 q) := by
  rw [val_main_v4_apply, val_main_v1_apply, val_main_v3_apply, val_main_v2_apply, idx_v2_v3_at, Ideal.addf_def]
  congr 1
  refine Finset.sum_congr rfl fun k _ => ?_
  rw [lidx_v1_at, ridx_v1_at]

/-- The reference's root term before the division: the node feature plus the root embedding's entry, clipped
    below at zero. -/
theorem ref_root_at (x0 : (⟨S100000x128, .f32⟩ : BufTy).Contents (Elt Ideal)) (x6 : (⟨S128x128, .f32⟩ : BufTy).Contents (Elt Ideal))
    (x7 : (⟨S128, .f32⟩ : BufTy).Contents (Elt Ideal)) (x10 : (⟨S1x128, .f32⟩ : BufTy).Contents (Elt Ideal)) (r : Fin 100000) (q : Fin 128) :
    val_main_v26 (F := Ideal) x0 x6 x7 x10 (ix2 r q)
      = max (val_main_v4 (F := Ideal) x0 x6 x7 (ix2 r q) + x10 (ix2 (0 : Fin 1) q)) (Ideal.ofBits .f32 0x00000000#32) := by
  rw [val_main_v26_apply, val_main_v25_apply, val_main_v24_apply, val_main_call1_v0_apply,
    val_main_call1_cst_apply, idx_v24_at, Ideal.maximumf_def, Ideal.addf_def, Ideal.ofBits_def]

/-- The reference's per-edge message at edge `r`, column `q`. -/
theorem ref_edge_at (x0 : (⟨S100000x128, .f32⟩ : BufTy).Contents (Elt Ideal)) (x1 : (⟨S1600000x7, .f32⟩ : BufTy).Contents (Elt Ideal))
    (x3 : (⟨S1600000x1, .f32⟩ : BufTy).Contents (Elt Ideal)) (x4 : (⟨S1600000, .i32⟩ : BufTy).Contents (Elt Ideal))
    (x6 : (⟨S128x128, .f32⟩ : BufTy).Contents (Elt Ideal)) (x7 : (⟨S128, .f32⟩ : BufTy).Contents (Elt Ideal))
    (x8 : (⟨S128x7, .f32⟩ : BufTy).Contents (Elt Ideal)) (x9 : (⟨S128, .f32⟩ : BufTy).Contents (Elt Ideal)) (r : Fin 1600000) (q : Fin 128) :
    val_main_v20 (F := Ideal) x0 x1 x3 x4 x6 x7 x8 x9 (ix2 r q)
      = x3 (ix2 r (0 : Fin 1)) * max (val_main_v16 (F := Ideal) x0 x4 x6 x7 (ix2 r q)
          + ((∑ k : Fin 7, x1 (ix2 r k) * val_main_v5 (F := Ideal) x8 (ix2 k q)) + x9 (ix1 q))) (Ideal.ofBits .f32 0x00000000#32) := by
  rw [val_main_v20_apply, val_main_v19_apply, val_main_v18_apply, val_main_v17_apply, val_main_v9_apply,
    val_main_v6_apply, val_main_v8_apply, val_main_v7_apply, val_main_call0_v0_apply,
    val_main_call0_cst_apply, idx_v19_at, idx_v7_v8_at]
  simp only [Ideal.mulf_def, Ideal.maximumf_def, Ideal.addf_def, Ideal.ofBits_def]
  congr 4
  refine Finset.sum_congr rfl fun k _ => ?_
  rw [lidx_v6_at, ridx_v6_at]

end Cert.GraphConv

end
-- ==== Proof.NodeRegion.lean ====
import proofs.«158468_j20864951124336_1_alg».proof.Proof.Gen.KernelIdeal.Frame
import proofs.«158468_j20864951124336_1_alg».proof.Proof.NodePayload
import proofs.«158468_j20864951124336_1_alg».proof.Proof.RefAt

set_option maxRecDepth 16384

noncomputable section

open scoped BigOperators

namespace Cert.GraphConv

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

open Cert.ReferenceIdeal.Read (val_main_v0 val_main_v4 val_main_v26)

theorem zero_off2 : (![0, 0] : Fin 2 → Nat) = fun _ => 0 := funext fun a => by fin_cases a <;> rfl

/-- The block index maps of the node region over its 20 grid points: the row-tiled windows (features in, both
    outputs) sit at block row `t`; the weight, bias and root-embedding windows stay at block (0, 0). -/
theorem node_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The node region has 20 grid points. -/
theorem node_pt_lt (t : Fin cfg0.N) : t.val < 20 := lt_of_lt_of_eq t.isLt N_0

section
variable (x0 : (⟨Cert.ReferenceIdeal.S100000x128, .f32⟩ : BufTy).Contents (Elt Ideal)) (x6 : (⟨Cert.ReferenceIdeal.S128x128, .f32⟩ : BufTy).Contents (Elt Ideal))
  (x7 : (⟨Cert.ReferenceIdeal.S128, .f32⟩ : BufTy).Contents (Elt Ideal)) (x10 : (⟨Cert.ReferenceIdeal.S1x128, .f32⟩ : BufTy).Contents (Elt Ideal))

/-- At grid point `n` the node kernel's first payload, over a feature block that is rows `5000 n …` of `x0`, the
    transposed weight and the bias row, is the reference's node feature at the block's place in the array. -/
theorem node_point (n : ℕ) (hn : n < 20) (xb : FVec Ideal S5000x128 .f32) (wt : FVec Ideal S128x128 .f32) (b2 : FVec Ideal S1x128 .f32)
    (hx : ∀ (p : Fin 5000) (k : Fin 128), xb (ix2 p k) = x0 (ix2 (⟨n * 5000 + p.val, by have := p.isLt; omega⟩ : Fin 100000) k))
    (hw : ∀ (k q : Fin 128), wt (ix2 k q) = val_main_v0 (F := Ideal) x6 (ix2 k q))
    (hb : ∀ q : Fin 128, b2 (ix2 (0 : Fin 1) q) = x7 (ix1 q))
    (p : Fin 5000) (q : Fin 128) :
    k0_pay1 (F := Ideal) xb wt b2 (ix2 p q)
      = val_main_v4 (F := Ideal) x0 x6 x7 (ix2 (⟨n * 5000 + p.val, by have := p.isLt; omega⟩ : Fin 100000) q) := by
  rw [node_payload_at, ref_node_at, hb]
  congr 1
  exact Finset.sum_congr rfl fun k _ => by rw [hx, hw]

/-- The same for the second payload: the clipped sum with the root embedding's row. -/
theorem root_point (n : ℕ) (hn : n < 20) (xb : FVec Ideal S5000x128 .f32) (wt : FVec Ideal S128x128 .f32) (b2 re : FVec Ideal S1x128 .f32)
    (hx : ∀ (p : Fin 5000) (k : Fin 128), xb (ix2 p k) = x0 (ix2 (⟨n * 5000 + p.val, by have := p.isLt; omega⟩ : Fin 100000) k))
    (hw : ∀ (k q : Fin 128), wt (ix2 k q) = val_main_v0 (F := Ideal) x6 (ix2 k q))
    (hb : ∀ q : Fin 128, b2 (ix2 (0 : Fin 1) q) = x7 (ix1 q))
    (hr : ∀ q : Fin 128, re (ix2 (0 : Fin 1) q) = x10 (ix2 (0 : Fin 1) q))
    (p : Fin 5000) (q : Fin 128) :
    k0_pay2 (F := Ideal) xb wt b2 re (ix2 p q)
      = val_main_v26 (F := Ideal) x0 x6 x7 x10 (ix2 (⟨n * 5000 + p.val, by have := p.isLt; omega⟩ : Fin 100000) q) := by
  rw [root_payload_at, ref_root_at, hr, node_point x0 x6 x7 n hn xb wt b2 hx hw hb p q]

variable (c : Dev nD)
  (h0 : V c (Pipeline.arrRef spec0 0) = x0)
  (h1 : V c (Pipeline.arrRef spec0 1) = val_main_v0 (F := Ideal) x6)
  (h2 : ∀ q : Fin 128, V c (Pipeline.arrRef spec0 2) (ix2 (0 : Fin 1) q) = x7 (ix1 q))
  (h3 : V c (Pipeline.arrRef spec0 3) = x10)

include h0 in
/-- The feature window's block at point `t` is rows `5000 t …` of the feature array. -/
theorem node_block0 (t : Fin cfg0.N) (p : Fin 5000) (k : Fin 128) :
    iblk0 V c 0 t (ix2 p k) = x0 (ix2 (⟨t.val * 5000 + p.val, by have := p.isLt; have := node_pt_lt t; omega⟩ : Fin 100000) k) := by
  obtain ⟨e0, e1, -⟩ := node_index_maps t
  show V c (Pipeline.arrRef spec0 0) (((cfg0.win 0).blk t).view.emb (ix2 p k)) = _
  rw [h0]
  refine congrArg x0 (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

include h1 in
/-- The weight window's block at every point is the whole transposed weight. -/
theorem node_block1 (t : Fin cfg0.N) (k q : Fin 128) :
    iblk0 V c 1 t (ix2 k q) = val_main_v0 (F := Ideal) x6 (ix2 k q) := by
  obtain ⟨-, -, e0, e1, -⟩ := node_index_maps t
  show V c (Pipeline.arrRef spec0 1) (((cfg0.win 1).blk t).view.emb (ix2 k q)) = _
  rw [h1]
  refine congrArg (val_main_v0 (F := Ideal) x6) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

include h2 in
/-- The bias window's block at every point is the bias row. -/
theorem node_block2 (t : Fin cfg0.N) (q : Fin 128) :
    iblk0 V c 2 t (ix2 (0 : Fin 1) q) = x7 (ix1 q) := by
  obtain ⟨-, -, -, -, e0, e1, -⟩ := node_index_maps t
  show V c (Pipeline.arrRef spec0 2) (((cfg0.win 2).blk t).view.emb (ix2 (0 : Fin 1) q)) = _
  rw [← h2 q]
  refine congrArg (V c (Pipeline.arrRef spec0 2)) (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

include h3 in
/-- The root-embedding window's block at every point is the embedding row. -/
theorem node_block3 (t : Fin cfg0.N) (q : Fin 128) :
    iblk0 V c 3 t (ix2 (0 : Fin 1) q) = x10 (ix2 (0 : Fin 1) q) := by
  obtain ⟨-, -, -, -, -, -, e0, e1, -⟩ := node_index_maps t
  show V c (Pipeline.arrRef spec0 3) (((cfg0.win 3).blk t).view.emb (ix2 (0 : Fin 1) q)) = _
  rw [h3]
  refine congrArg x10 (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

include h0 h1 h2 in
/-- What point `t` writes back through the first output window is block `t` of the reference's node features. -/
theorem node_flushed (t : Fin cfg0.N) :
    (dat0 V c).flushed 4 t = ((cfg0.win 4).blk t).view.read (Elt Ideal) (val_main_v4 (F := Ideal) x0 x6 x7) := by
  show (cfg0.win 4).cut (grid0.coords t) ((dat0 V c).after 4 t) = _
  rw [after0_4]
  unfold out0_4
  rw [View.canon_unit_zero zero_off2]
  simp only [View.ld_unit_zero (S := S5000x128) zero_off2, View.ld_unit_zero (S := S128x128) zero_off2, View.ld_unit_zero (S := S1x128) zero_off2]
  funext j
  obtain ⟨p, q, rfl⟩ : ∃ (p : Fin 5000) (q : Fin 128), j = ix2 p q := ⟨j 0, j 1, eq_ix2 j⟩
  obtain ⟨-, -, -, -, -, -, -, -, e0, e1, -⟩ := node_index_maps t
  show k0_pay1 (F := Ideal) (iblk0 V c 0 t) (iblk0 V c 1 t) (iblk0 V c 2 t) (ix2 p q)
    = val_main_v4 (F := Ideal) x0 x6 x7 (((cfg0.win 4).blk t).view.emb (ix2 p q))
  refine (node_point x0 x6 x7 t.val (node_pt_lt t) (iblk0 V c 0 t) (iblk0 V c 1 t) (iblk0 V c 2 t)
    (node_block0 V x0 c h0 t) (node_block1 V x6 c h1 t) (node_block2 V x7 c h2 t) p q).trans ?_
  refine congrArg (val_main_v4 (F := Ideal) x0 x6 x7) (funext fun a => Fin.ext ?_)
  match a with
  | ⟨0, _⟩ => show t.val * 5000 + p.val = win0_4.index t (0 : Fin 2) * 5000 + 1 * p.val; rw [e0]; omega
  | ⟨1, _⟩ => show q.val = win0_4.index t (1 : Fin 2) * 128 + 1 * q.val; rw [e1]; omega

include h0 h1 h2 h3 in
/-- What point `t` writes back through the second output window is block `t` of the reference's clipped root sum. -/
theorem root_flushed (t : Fin cfg0.N) :
    (dat0 V c).flushed 5 t = ((cfg0.win 5).blk t).view.read (Elt Ideal) (val_main_v26 (F := Ideal) x0 x6 x7 x10) := by
  show (cfg0.win 5).cut (grid0.coords t) ((dat0 V c).after 5 t) = _
  rw [after0_5]
  unfold out0_5
  rw [View.canon_unit_zero zero_off2]
  simp only [View.ld_unit_zero (S := S5000x128) zero_off2, View.ld_unit_zero (S := S128x128) zero_off2, View.ld_unit_zero (S := S1x128) zero_off2]
  funext j
  obtain ⟨p, q, rfl⟩ : ∃ (p : Fin 5000) (q : Fin 128), j = ix2 p q := ⟨j 0, j 1, eq_ix2 j⟩
  obtain ⟨-, -, -, -, -, -, -, -, -, -, e0, e1⟩ := node_index_maps t
  show k0_pay2 (F := Ideal) (iblk0 V c 0 t) (iblk0 V c 1 t) (iblk0 V c 2 t) (iblk0 V c 3 t) (ix2 p q)
    = val_main_v26 (F := Ideal) x0 x6 x7 x10 (((cfg0.win 5).blk t).view.emb (ix2 p q))
  refine (root_point x0 x6 x7 x10 t.val (node_pt_lt t) (iblk0 V c 0 t) (iblk0 V c 1 t) (iblk0 V c 2 t) (iblk0 V c 3 t)
    (node_block0 V x0 c h0 t) (node_block1 V x6 c h1 t) (node_block2 V x7 c h2 t) (node_block3 V x10 c h3 t) p q).trans ?_
  refine congrArg (val_main_v26 (F := Ideal) x0 x6 x7 x10) (funext fun a => Fin.ext ?_)
  match a with
  | ⟨0, _⟩ => show t.val * 5000 + p.val = win0_5.index t (0 : Fin 2) * 5000 + 1 * p.val; rw [e0]; omega
  | ⟨1, _⟩ => show q.val = win0_5.index t (1 : Fin 2) * 128 + 1 * q.val; rw [e1]; omega

/-- An index of the first output array lies in point `t`'s block iff each coordinate is in the block's range. -/
theorem node_mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v4_0).slice (win0_4.rect t)).set ↔ _
  rw [View.set_slice_whole, Rect.mem_set_unit]
  exact Iff.rfl

/-- The same for the second output array. -/
theorem node_mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v4_1).slice (win0_5.rect t)).set ↔ _
  rw [View.set_slice_whole, Rect.mem_set_unit]
  exact Iff.rfl

/-- Row `r` of the first output array is written by point `r / 5000`: the twenty row blocks tile the array. -/
theorem node_cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < cfg0.N := lt_of_lt_of_eq (by omega) N_0.symm
  obtain ⟨-, -, -, -, -, -, -, -, e0, e1, -⟩ := node_index_maps ⟨(i 0).val / 5000, ht⟩
  refine ⟨⟨(i 0).val / 5000, ht⟩, flush0_4 _, ?_⟩
  rw [node_mem_blk4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e1]; omega

/-- The same for the second output array. -/
theorem node_cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := lt_of_lt_of_eq (by omega) N_0.symm
  obtain ⟨-, -, -, -, -, -, -, -, -, -, e0, e1⟩ := node_index_maps ⟨(i 0).val / 5000, ht⟩
  refine ⟨⟨(i 0).val / 5000, ht⟩, flush0_5 _, ?_⟩
  rw [node_mem_blk5]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

include h0 h1 h2 in
/-- THE FIRST OUTPUT ARRAY after the node region is the reference's node features. -/
theorem node_array : (dat0 V c).arrAt 4 cfg0.N = val_main_v4 (F := Ideal) x0 x6 x7 :=
  (dat0 V c).arrAt_eq_of_cover 4 (val_main_v4 (F := Ideal) x0 x6 x7) (fun t _ => node_flushed V x0 x6 x7 c h0 h1 h2 t) node_cover4

include h0 h1 h2 h3 in
/-- THE SECOND OUTPUT ARRAY after the node region is the reference's clipped root sum. -/
theorem root_array : (dat0 V c).arrAt 5 cfg0.N = val_main_v26 (F := Ideal) x0 x6 x7 x10 :=
  (dat0 V c).arrAt_eq_of_cover 5 (val_main_v26 (F := Ideal) x0 x6 x7 x10) (fun t _ => root_flushed V x0 x6 x7 x10 c h0 h1 h2 h3 t) node_cover5

end

end Cert.GraphConv
end
-- ==== Proof.EdgePayload.lean ====
import proofs.«158468_j20864951124336_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphConv

open Idealize.ShloMosaic Idealize.ShloMosaic.ValueIdx Cert.KernelIdeal Cert.KernelIdeal.Gen

/-! ## The edge kernel's contraction: which operand elements meet at an output index and a contraction index

The dimension numbers contract the left operand's axis 1 with the right operand's axis 0; the left operand's axis 0 and
the right operand's axis 1 are the output's two axes. One lemma per operand axis. -/

/-- The left operand's row is the output's row. -/
private theorem lhs_edge_0 (i : S6400x128.Idx) (q : dot_S6400x7_S7x128_S6400x128_1_0_0_1_n_n.contr.Idx) :
    (dot_S6400x7_S7x128_S6400x128_1_0_0_1_n_n.lhsIdx i q 0).val = (i 0).val := by
  unfold DotDims.lhsIdx
  rw [dif_neg (show ¬(0 : Fin S6400x7.rank) ∈ dot_S6400x7_S7x128_S6400x128_1_0_0_1_n_n.lhsBatch by decide), dif_pos (show (0 : Fin S6400x7.rank) ∈ dot_S6400x7_S7x128_S6400x128_1_0_0_1_n_n.lhsNonContracting by decide)]
  rfl
/-- The left operand's column is the contraction coordinate. -/
private theorem lhs_edge_1 (i : S6400x128.Idx) (q : dot_S6400x7_S7x128_S6400x128_1_0_0_1_n_n.contr.Idx) :
    (dot_S6400x7_S7x128_S6400x128_1_0_0_1_n_n.lhsIdx i q 1).val = (q ⟨0, by decide⟩).val :=
  dot_S6400x7_S7x128_S6400x128_1_0_0_1_n_n.lhsIdx_val_of_single rfl i q
/-- The right operand's row is the contraction coordinate. -/
private theorem rhs_edge_0 (i : S6400x128.Idx) (q : dot_S6400x7_S7x128_S6400x128_1_0_0_1_n_n.contr.Idx) :
    (dot_S6400x7_S7x128_S6400x128_1_0_0_1_n_n.rhsIdx i q 0).val = (q ⟨0, by decide⟩).val :=
  dot_S6400x7_S7x128_S6400x128_1_0_0_1_n_n.rhsIdx_val_of_single rfl i q
/-- The right operand's column is the output's column. -/
private theorem rhs_edge_1 (i : S6400x128.Idx) (q : dot_S6400x7_S7x128_S6400x128_1_0_0_1_n_n.contr.Idx) :
    (dot_S6400x7_S7x128_S6400x128_1_0_0_1_n_n.rhsIdx i q 1).val = (i 1).val := by
  unfold DotDims.rhsIdx
  rw [dif_neg (show ¬(1 : Fin S7x128.rank) ∈ dot_S6400x7_S7x128_S6400x128_1_0_0_1_n_n.rhsBatch by decide), dif_pos (show (1 : Fin S7x128.rank) ∈ dot_S6400x7_S7x128_S6400x128_1_0_0_1_n_n.rhsNonContracting by decide)]
  rfl

/-- The edge kernel's matrix product into the zero accumulator, read at `(p, q)`: row `p` of the left operand against
    column `q` of the right one, the contraction's one axis re-indexed by its coordinate `k : Fin 7`. -/
private theorem edge_matmul_at (a : FVec Ideal S6400x7 .bf16) (b : FVec Ideal S7x128 .bf16) (p : Fin 6400) (q : Fin 128) :
    matmul dot_S6400x7_S7x128_S6400x128_1_0_0_1_n_n none a b (constant (F := Ideal) S6400x128 .f32 0x00000000#32) (ix2 p q)
      = ∑ k : Fin 7, a (ix2 p k) * b (ix2 k q) := by
  simp only [matmul]
  rw [Ideal.matmul_constant_zero_apply, ← Equiv.sum_comp (ValueIdx.contrEquiv1 dot_S6400x7_S7x128_S6400x128_1_0_0_1_n_n 7 rfl rfl).symm]
  refine Finset.sum_congr rfl fun k _ => ?_
  have hk := ValueIdx.contrEquiv1_symm_val dot_S6400x7_S7x128_S6400x128_1_0_0_1_n_n 7 rfl rfl k
  have el : dot_S6400x7_S7x128_S6400x128_1_0_0_1_n_n.lhsIdx (ix2 p q) ((ValueIdx.contrEquiv1 dot_S6400x7_S7x128_S6400x128_1_0_0_1_n_n 7 rfl rfl).symm k) = ix2 p k := funext fun ax => Fin.ext (by
    match ax with
    | ⟨0, _⟩ => exact lhs_edge_0 _ _
    | ⟨1, _⟩ => exact (lhs_edge_1 _ _).trans hk)
  have er : dot_S6400x7_S7x128_S6400x128_1_0_0_1_n_n.rhsIdx (ix2 p q) ((ValueIdx.contrEquiv1 dot_S6400x7_S7x128_S6400x128_1_0_0_1_n_n 7 rfl rfl).symm k) = ix2 k q := funext fun ax => Fin.ext (by
    match ax with
    | ⟨0, _⟩ => exact (rhs_edge_0 _ _).trans hk
    | ⟨1, _⟩ => exact rhs_edge_1 _ _)
  rw [el, er]

/-! ## One column broadcast over many -/

/-- An `[a, 1]` array broadcast to `[a, b]` reads, at `(p, c)`, the operand's one column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element of the edge kernel's stored value: the edge's norm times the clipped sum of the gathered node
    feature, the edge feature row times column `q` of the transposed edge weight, and the bias entry. -/
theorem edge_payload_at (g : FVec Ideal S6400x128 .f32) (ef : FVec Ideal S6400x7 .f32) (wet : FVec Ideal S7x128 .f32)
    (be2 : FVec Ideal S1x128 .f32) (nrm : FVec Ideal S6400x1 .f32) (p : Fin 6400) (q : Fin 128) :
    k1_pay1 (F := Ideal) g ef wet be2 nrm (ix2 p q)
      = nrm (ix2 p (0 : Fin 1)) * max (g (ix2 p q) + ((∑ k : Fin 7, ef (ix2 p k) * wet (ix2 k q)) + be2 (ix2 (0 : Fin 1) q)))
          (Ideal.ofBits .f32 0x00000000#32) := by
  unfold k1_pay1
  simp only [shapeCast_self]
  rw [mulf_apply, maximumf_apply, addf_apply, addf_apply, broadcast_apply, broadcastTo_a1_ab_apply, broadcastTo_1b_ab_apply,
    edge_matmul_at]
  simp only [truncf_apply]
  rfl

end Cert.GraphConv

end
-- ==== Proof.EdgeRegion.lean ====
import proofs.«158468_j20864951124336_1_alg».proof.Proof.Gen.KernelIdeal.Frame
import proofs.«158468_j20864951124336_1_alg».proof.Proof.EdgePayload
import proofs.«158468_j20864951124336_1_alg».proof.Proof.RefAt

set_option maxRecDepth 16384

noncomputable section

open scoped BigOperators

namespace Cert.GraphConv

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

open Cert.ReferenceIdeal.Read (val_main_v5 val_main_v16 val_main_v20)

theorem zero_off2' : (![0, 0] : Fin 2 → Nat) = fun _ => 0 := funext fun a => by fin_cases a <;> rfl

/-- The edge region has 250 grid points. -/
theorem edge_pt_lt (t : Fin cfg1.N) : t.val < 250 := lt_of_lt_of_eq t.isLt N_1

/-- The block index maps of the edge region over its 250 grid points: the row-tiled windows (gathered node
    features, edge features, norms, and the output) sit at block row `t`; the edge weight and bias windows stay
    at block (0, 0). -/
theorem edge_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (x0 : (⟨Cert.ReferenceIdeal.S100000x128, .f32⟩ : BufTy).Contents (Elt Ideal)) (x1 : (⟨Cert.ReferenceIdeal.S1600000x7, .f32⟩ : BufTy).Contents (Elt Ideal))
  (x3 : (⟨Cert.ReferenceIdeal.S1600000x1, .f32⟩ : BufTy).Contents (Elt Ideal)) (x4 : (⟨Cert.ReferenceIdeal.S1600000, .i32⟩ : BufTy).Contents (Elt Ideal))
  (x6 : (⟨Cert.ReferenceIdeal.S128x128, .f32⟩ : BufTy).Contents (Elt Ideal)) (x7 : (⟨Cert.ReferenceIdeal.S128, .f32⟩ : BufTy).Contents (Elt Ideal))
  (x8 : (⟨Cert.ReferenceIdeal.S128x7, .f32⟩ : BufTy).Contents (Elt Ideal)) (x9 : (⟨Cert.ReferenceIdeal.S128, .f32⟩ : BufTy).Contents (Elt Ideal))

/-- At grid point `n` the edge kernel's payload, over blocks that are rows `6400 n …` of the gathered features, the
    edge features and the norms, the transposed edge weight and the bias row, is the reference's per-edge message
    at the block's place in the array. -/
theorem edge_point (n : ℕ) (hn : n < 250) (g : FVec Ideal S6400x128 .f32) (ef : FVec Ideal S6400x7 .f32) (wet : FVec Ideal S7x128 .f32)
    (be2 : FVec Ideal S1x128 .f32) (nrm : FVec Ideal S6400x1 .f32)
    (hg : ∀ (p : Fin 6400) (q : Fin 128), g (ix2 p q) = val_main_v16 (F := Ideal) x0 x4 x6 x7 (ix2 (⟨n * 6400 + p.val, by have := p.isLt; omega⟩ : Fin 1600000) q))
    (he : ∀ (p : Fin 6400) (k : Fin 7), ef (ix2 p k) = x1 (ix2 (⟨n * 6400 + p.val, by have := p.isLt; omega⟩ : Fin 1600000) k))
    (hw : ∀ (k : Fin 7) (q : Fin 128), wet (ix2 k q) = val_main_v5 (F := Ideal) x8 (ix2 k q))
    (hb : ∀ q : Fin 128, be2 (ix2 (0 : Fin 1) q) = x9 (ix1 q))
    (hn' : ∀ p : Fin 6400, nrm (ix2 p (0 : Fin 1)) = x3 (ix2 (⟨n * 6400 + p.val, by have := p.isLt; omega⟩ : Fin 1600000) (0 : Fin 1)))
    (p : Fin 6400) (q : Fin 128) :
    k1_pay1 (F := Ideal) g ef wet be2 nrm (ix2 p q)
      = val_main_v20 (F := Ideal) x0 x1 x3 x4 x6 x7 x8 x9 (ix2 (⟨n * 6400 + p.val, by have := p.isLt; omega⟩ : Fin 1600000) q) := by
  rw [edge_payload_at, ref_edge_at, hb, hn', hg]
  congr 4
  exact Finset.sum_congr rfl fun k _ => by rw [he, hw]

variable (c : Dev nD)
  (h0 : V c (Pipeline.arrRef spec1 0) = val_main_v16 (F := Ideal) x0 x4 x6 x7)
  (h1 : V c (Pipeline.arrRef spec1 1) = x1)
  (h2 : V c (Pipeline.arrRef spec1 2) = x3)
  (h3 : V c (Pipeline.arrRef spec1 3) = val_main_v5 (F := Ideal) x8)
  (h4 : ∀ q : Fin 128, V c (Pipeline.arrRef spec1 4) (ix2 (0 : Fin 1) q) = x9 (ix1 q))

include h0 in
/-- The gathered-feature window's block at point `t` is rows `6400 t …` of the gathered array. -/
theorem edge_block0 (t : Fin cfg1.N) (p : Fin 6400) (q : Fin 128) :
    iblk1 V c 0 t (ix2 p q) = val_main_v16 (F := Ideal) x0 x4 x6 x7 (ix2 (⟨t.val * 6400 + p.val, by have := p.isLt; have := edge_pt_lt t; omega⟩ : Fin 1600000) q) := by
  obtain ⟨e0, e1, -⟩ := edge_index_maps t
  show V c (Pipeline.arrRef spec1 0) (((cfg1.win 0).blk t).view.emb (ix2 p q)) = _
  rw [h0]
  refine congrArg (val_main_v16 (F := Ideal) x0 x4 x6 x7) (funext fun a => Fin.ext ?_)
  match a with
  | ⟨0, _⟩ => show win1_0.index t (0 : Fin 2) * 6400 + 1 * p.val = t.val * 6400 + p.val; rw [e0]; omega
  | ⟨1, _⟩ => show win1_0.index t (1 : Fin 2) * 128 + 1 * q.val = q.val; rw [e1]; omega

include h1 in
/-- The edge-feature window's block at point `t` is rows `6400 t …` of the edge features. -/
theorem edge_block1 (t : Fin cfg1.N) (p : Fin 6400) (k : Fin 7) :
    iblk1 V c 1 t (ix2 p k) = x1 (ix2 (⟨t.val * 6400 + p.val, by have := p.isLt; have := edge_pt_lt t; omega⟩ : Fin 1600000) k) := by
  obtain ⟨-, -, e0, e1, -⟩ := edge_index_maps t
  show V c (Pipeline.arrRef spec1 1) (((cfg1.win 1).blk t).view.emb (ix2 p k)) = _
  rw [h1]
  refine congrArg x1 (funext fun a => Fin.ext ?_)
  match a with
  | ⟨0, _⟩ => show win1_1.index t (0 : Fin 2) * 6400 + 1 * p.val = t.val * 6400 + p.val; rw [e0]; omega
  | ⟨1, _⟩ => show win1_1.index t (1 : Fin 2) * 7 + 1 * k.val = k.val; rw [e1]; omega

include h2 in
/-- The norm window's block at point `t` is rows `6400 t …` of the norms. -/
theorem edge_block2 (t : Fin cfg1.N) (p : Fin 6400) :
    iblk1 V c 2 t (ix2 p (0 : Fin 1)) = x3 (ix2 (⟨t.val * 6400 + p.val, by have := p.isLt; have := edge_pt_lt t; omega⟩ : Fin 1600000) (0 : Fin 1)) := by
  obtain ⟨-, -, -, -, e0, e1, -⟩ := edge_index_maps t
  show V c (Pipeline.arrRef spec1 2) (((cfg1.win 2).blk t).view.emb (ix2 p (0 : Fin 1))) = _
  rw [h2]
  refine congrArg x3 (funext fun a => Fin.ext ?_)
  match a with
  | ⟨0, _⟩ => show win1_2.index t (0 : Fin 2) * 6400 + 1 * p.val = t.val * 6400 + p.val; rw [e0]; omega
  | ⟨1, _⟩ => show win1_2.index t (1 : Fin 2) * 1 + 1 * 0 = 0; rw [e1]

include h3 in
/-- The edge-weight window's block at every point is the whole transposed edge weight. -/
theorem edge_block3 (t : Fin cfg1.N) (k : Fin 7) (q : Fin 128) :
    iblk1 V c 3 t (ix2 k q) = val_main_v5 (F := Ideal) x8 (ix2 k q) := by
  obtain ⟨-, -, -, -, -, -, e0, e1, -⟩ := edge_index_maps t
  show V c (Pipeline.arrRef spec1 3) (((cfg1.win 3).blk t).view.emb (ix2 k q)) = _
  rw [h3]
  refine congrArg (val_main_v5 (F := Ideal) x8) (funext fun a => Fin.ext ?_)
  match a with
  | ⟨0, _⟩ => show win1_3.index t (0 : Fin 2) * 7 + 1 * k.val = k.val; rw [e0]; omega
  | ⟨1, _⟩ => show win1_3.index t (1 : Fin 2) * 128 + 1 * q.val = q.val; rw [e1]; omega

include h4 in
/-- The edge-bias window's block at every point is the bias row. -/
theorem edge_block4 (t : Fin cfg1.N) (q : Fin 128) :
    iblk1 V c 4 t (ix2 (0 : Fin 1) q) = x9 (ix1 q) := by
  obtain ⟨-, -, -, -, -, -, -, -, e0, e1, -⟩ := edge_index_maps t
  show V c (Pipeline.arrRef spec1 4) (((cfg1.win 4).blk t).view.emb (ix2 (0 : Fin 1) q)) = _
  rw [← h4 q]
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

include h0 h1 h2 h3 h4 in
/-- What point `t` writes back through the output window is block `t` of the reference's per-edge messages. -/
theorem edge_flushed (t : Fin cfg1.N) :
    (dat1 V c).flushed 5 t = ((cfg1.win 5).blk t).view.read (Elt Ideal) (val_main_v20 (F := Ideal) x0 x1 x3 x4 x6 x7 x8 x9) := by
  show (cfg1.win 5).cut (grid1.coords t) ((dat1 V c).after 5 t) = _
  rw [after1_5]
  unfold out1_5
  rw [View.canon_unit_zero zero_off2']
  simp only [View.ld_unit_zero (S := S6400x128) zero_off2', View.ld_unit_zero (S := S6400x7) zero_off2', View.ld_unit_zero (S := S6400x1) zero_off2',
    View.ld_unit_zero (S := S7x128) zero_off2', View.ld_unit_zero (S := S1x128) zero_off2']
  funext j
  obtain ⟨p, q, rfl⟩ : ∃ (p : Fin 6400) (q : Fin 128), j = ix2 p q := ⟨j 0, j 1, eq_ix2 j⟩
  obtain ⟨-, -, -, -, -, -, -, -, -, -, e0, e1⟩ := edge_index_maps t
  show k1_pay1 (F := Ideal) (iblk1 V c 0 t) (iblk1 V c 1 t) (iblk1 V c 3 t) (iblk1 V c 4 t) (iblk1 V c 2 t) (ix2 p q)
    = val_main_v20 (F := Ideal) x0 x1 x3 x4 x6 x7 x8 x9 (((cfg1.win 5).blk t).view.emb (ix2 p q))
  refine (edge_point x0 x1 x3 x4 x6 x7 x8 x9 t.val (edge_pt_lt t) (iblk1 V c 0 t) (iblk1 V c 1 t) (iblk1 V c 3 t) (iblk1 V c 4 t) (iblk1 V c 2 t)
    (edge_block0 V x0 x4 x6 x7 c h0 t) (edge_block1 V x1 c h1 t) (edge_block3 V x8 c h3 t) (edge_block4 V x9 c h4 t) (edge_block2 V x3 c h2 t) p q).trans ?_
  refine congrArg (val_main_v20 (F := Ideal) x0 x1 x3 x4 x6 x7 x8 x9) (funext fun a => Fin.ext ?_)
  match a with
  | ⟨0, _⟩ => show t.val * 6400 + p.val = win1_5.index t (0 : Fin 2) * 6400 + 1 * p.val; rw [e0]; omega
  | ⟨1, _⟩ => show q.val = win1_5.index t (1 : Fin 2) * 128 + 1 * q.val; rw [e1]; omega

/-- An index of the output array lies in point `t`'s block iff each coordinate is in the block's range. -/
theorem edge_mem_blk5 (t : Fin cfg1.N) (i : S1600000x128.Idx) :
    i ∈ ((cfg1.win 5).blk t).view.set ↔ ∀ a : Fin 2, win1_5.index t a * S6400x128.size a ≤ (i a).val ∧ (i a).val < win1_5.index t a * S6400x128.size a + S6400x128.size a := by
  show i ∈ ((View.whole main_v12).slice (win1_5.rect t)).set ↔ _
  rw [View.set_slice_whole, Rect.mem_set_unit]
  exact Iff.rfl

/-- Row `r` of the output array is written by point `r / 6400`: the 250 row blocks tile the array. -/
theorem edge_cover5 (i : S1600000x128.Idx) : ∃ t : Fin cfg1.N, (cfg1.win 5).flush t = true ∧ i ∈ ((cfg1.win 5).blk t).view.set := by
  have hi0 : (i 0).val < 1600000 := (i 0).isLt
  have hi1 : (i 1).val < 128 := (i 1).isLt
  have ht : (i 0).val / 6400 < cfg1.N := lt_of_lt_of_eq (by omega) N_1.symm
  obtain ⟨-, -, -, -, -, -, -, -, -, -, e0, e1⟩ := edge_index_maps ⟨(i 0).val / 6400, ht⟩
  refine ⟨⟨(i 0).val / 6400, ht⟩, flush1_5 _, ?_⟩
  rw [edge_mem_blk5]
  intro a
  match a with
  | ⟨0, _⟩ =>
    show win1_5.index ⟨(i 0).val / 6400, ht⟩ (0 : Fin 2) * 6400 ≤ (i 0).val ∧ (i 0).val < win1_5.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win1_5.index ⟨(i 0).val / 6400, ht⟩ (1 : Fin 2) * 128 ≤ (i 1).val ∧ (i 1).val < win1_5.index ⟨(i 0).val / 6400, ht⟩ (1 : Fin 2) * 128 + 128
    rw [e1]; omega

include h0 h1 h2 h3 h4 in
/-- THE OUTPUT ARRAY after the edge region is the reference's per-edge messages. -/
theorem edge_array : (dat1 V c).arrAt 5 cfg1.N = val_main_v20 (F := Ideal) x0 x1 x3 x4 x6 x7 x8 x9 :=
  (dat1 V c).arrAt_eq_of_cover 5 (val_main_v20 (F := Ideal) x0 x1 x3 x4 x6 x7 x8 x9)
    (fun t _ => edge_flushed V x0 x1 x3 x4 x6 x7 x8 x9 c h0 h1 h2 h3 h4 t) edge_cover5

end

end Cert.GraphConv
end
-- ==== Proof.Fold.lean ====
import proofs.«158468_j20864951124336_1_alg».proof.Proof.Gen.KernelIdeal.Frame
import proofs.«158468_j20864951124336_1_alg».proof.Proof.NodeRegion
import proofs.«158468_j20864951124336_1_alg».proof.Proof.EdgeRegion
import Idealize.ShloMosaic.Lib.StableHlo.Run

set_option maxRecDepth 16384

noncomputable section

open scoped BigOperators

namespace Cert.GraphConv

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v0 val_main_v4 val_main_v5 val_main_v16 val_main_v20 val_main_v26 val_main_v30)

variable (m : (ℓ : Loc nD τ sig) → Buf (Elt Ideal) ℓ) (ρ : Dev nD → PrngReg) (c : Dev nD)

/-- The launch contents of one of @main's buffers on core `c`. -/
abbrev launched (b : Ref sig .tc) : Buf (Elt Ideal) ((c : Thread nD τ).loc b) := m ((c : Thread nD τ).loc b)

/-- No operation of the three host stretches writes the buffer at hand: each operation's one result buffer is
    another reference. -/
local macro "stretch_keeps" : tactic => `(tactic| (
  refine List.forall_iff_forall_mem.mp ?_
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Region 0's entry contents: the first host stretch over the launch memory -/

/-- The feature window's array is the launched features: the stretch does not write it. -/
theorem entry0_feat : V1 m ρ c (Pipeline.arrRef spec0 0) = launched m c main_arg0 :=
  (StableHlo.after_of_forall_not_mem (b := Proc.devRef .tc main_arg0) _ _ (by stretch_keeps)).trans rfl

/-- The root-embedding window's array is the launched embedding. -/
theorem entry0_root : V1 m ρ c (Pipeline.arrRef spec0 3) = launched m c main_arg10 :=
  (StableHlo.after_of_forall_not_mem (b := Proc.devRef .tc main_arg10) _ _ (by stretch_keeps)).trans rfl

/-- The weight window's array is the transposed weight. -/
theorem entry0_wt : V1 m ρ c (Pipeline.arrRef spec0 1) = val_main_v0 (F := Ideal) (launched m c main_arg6) := by
  show StableHlo.after hostOps0 (W0 m ρ c) (Proc.devRef .tc main_v0) = _
  after_results
  rfl

/-- The bias window's array, a one-row view of the bias, reads the bias at the column. -/
theorem entry0_bias (q : Fin 128) : V1 m ρ c (Pipeline.arrRef spec0 2) (ix2 (0 : Fin 1) q) = launched m c main_arg7 (ix1 q) := by
  have e : V1 m ρ c (Pipeline.arrRef spec0 2) = shapeCast S1x128 (launched m c main_arg7) shapeCasts_S128_S1x128 := by
    show StableHlo.after hostOps0 (W0 m ρ c) (Proc.devRef .tc main_v2) = _
    after_results
    rfl
  rw [e]
  refine (shapeCast_addUnit_apply ![128] (launched m c main_arg7) shapeCasts_S128_S1x128 (ix2 (0 : Fin 1) q)).trans ?_
  exact congrArg (launched m c main_arg7) (funext fun a => by match a with | ⟨0, _⟩ => rfl)

/-! ## Region 0's exit contents -/

/-- After the node region its first output array holds the reference's node features. -/
theorem exit0_node : W2 m ρ c (Proc.devRef .tc main_v4_0)
    = val_main_v4 (F := Ideal) (launched m c main_arg0) (launched m c main_arg6) (launched m c main_arg7) :=
  (W2_arr m ρ c 4).trans (node_array (V1 m ρ) (launched m c main_arg0) (launched m c main_arg6) (launched m c main_arg7) c
    (entry0_feat m ρ c) (entry0_wt m ρ c) (entry0_bias m ρ c))

/-- After the node region its second output array holds the reference's clipped root sum. -/
theorem exit0_root : W2 m ρ c (Proc.devRef .tc main_v4_1)
    = val_main_v26 (F := Ideal) (launched m c main_arg0) (launched m c main_arg6) (launched m c main_arg7) (launched m c main_arg10) :=
  (W2_arr m ρ c 5).trans (root_array (V1 m ρ) (launched m c main_arg0) (launched m c main_arg6) (launched m c main_arg7) (launched m c main_arg10) c
    (entry0_feat m ρ c) (entry0_wt m ρ c) (entry0_bias m ρ c) (entry0_root m ρ c))

/-- A buffer that is no array of the node region and that the first stretch does not write holds its launch
    contents at the region's exit. -/
theorem exit0_launched (b : Ref sig .tc) (hb : ∀ w, Pipeline.arrRef spec0 w ≠ b)
    (hw : ∀ op ∈ (hostOps0 : List (HloOp τ sig (Elt Ideal))), Proc.devRef .tc b ∉ op.writes) :
    W2 m ρ c (Proc.devRef .tc b) = launched m c b :=
  (W2_of_ne m ρ c b hb).trans ((StableHlo.after_of_forall_not_mem (b := Proc.devRef .tc b) _ _ hw).trans rfl)

/-- The transposed edge weight, written by the first stretch, is still there at the node region's exit. -/
theorem exit0_wet : W2 m ρ c (Proc.devRef .tc main_v1) = val_main_v5 (F := Ideal) (launched m c main_arg8) := by
  refine (W2_of_ne m ρ c main_v1 (by decide)).trans ?_
  show StableHlo.after hostOps0 (W0 m ρ c) (Proc.devRef .tc main_v1) = _
  after_results
  rfl

/-- The one-row view of the edge bias, written by the first stretch, is still there at the node region's exit. -/
theorem exit0_ebias : W2 m ρ c (Proc.devRef .tc main_v3) = shapeCast S1x128 (launched m c main_arg9) shapeCasts_S128_S1x128 := by
  refine (W2_of_ne m ρ c main_v3 (by decide)).trans ?_
  show StableHlo.after hostOps0 (W0 m ρ c) (Proc.devRef .tc main_v3) = _
  after_results
  rfl

/-! ## Region 1's entry contents: the second host stretch over region 0's exit contents -/

/-- The gathered-feature window's array is the reference's gather of its node features at the normalised
    source indices. -/
theorem entry1_gathered : V3 m ρ c (Pipeline.arrRef spec1 0)
    = val_main_v16 (F := Ideal) (launched m c main_arg0) (launched m c main_arg4) (launched m c main_arg6) (launched m c main_arg7) := by
  show StableHlo.after hostOps1 (W2 m ρ c) (Proc.devRef .tc main_v11) = _
  after_results
  rw [exit0_node m ρ c, exit0_launched m ρ c main_arg4 (by decide) (by stretch_keeps)]
  rfl

/-- The edge-feature window's array is the launched edge features. -/
theorem entry1_efeat : V3 m ρ c (Pipeline.arrRef spec1 1) = launched m c main_arg1 :=
  (StableHlo.after_of_forall_not_mem (b := Proc.devRef .tc main_arg1) _ _ (by stretch_keeps)).trans
    (exit0_launched m ρ c main_arg1 (by decide) (by stretch_keeps))

/-- The norm window's array is the launched norms. -/
theorem entry1_norm : V3 m ρ c (Pipeline.arrRef spec1 2) = launched m c main_arg3 :=
  (StableHlo.after_of_forall_not_mem (b := Proc.devRef .tc main_arg3) _ _ (by stretch_keeps)).trans
    (exit0_launched m ρ c main_arg3 (by decide) (by stretch_keeps))

/-- The edge-weight window's array is the transposed edge weight. -/
theorem entry1_wet : V3 m ρ c (Pipeline.arrRef spec1 3) = val_main_v5 (F := Ideal) (launched m c main_arg8) :=
  (StableHlo.after_of_forall_not_mem (b := Proc.devRef .tc main_v1) _ _ (by stretch_keeps)).trans (exit0_wet m ρ c)

/-- The edge-bias window's array, a one-row view of the edge bias, reads the bias at the column. -/
theorem entry1_ebias (q : Fin 128) : V3 m ρ c (Pipeline.arrRef spec1 4) (ix2 (0 : Fin 1) q) = launched m c main_arg9 (ix1 q) := by
  have e : V3 m ρ c (Pipeline.arrRef spec1 4) = shapeCast S1x128 (launched m c main_arg9) shapeCasts_S128_S1x128 :=
    (StableHlo.after_of_forall_not_mem (b := Proc.devRef .tc main_v3) _ _ (by stretch_keeps)).trans (exit0_ebias m ρ c)
  rw [e]
  refine (shapeCast_addUnit_apply ![128] (launched m c main_arg9) shapeCasts_S128_S1x128 (ix2 (0 : Fin 1) q)).trans ?_
  exact congrArg (launched m c main_arg9) (funext fun a => by match a with | ⟨0, _⟩ => rfl)

/-! ## Region 1's exit contents -/

/-- After the edge region its output array holds the reference's per-edge messages. -/
theorem exit1_edge : W4 m ρ c (Proc.devRef .tc main_v12)
    = val_main_v20 (F := Ideal) (launched m c main_arg0) (launched m c main_arg1) (launched m c main_arg3) (launched m c main_arg4)
        (launched m c main_arg6) (launched m c main_arg7) (launched m c main_arg8) (launched m c main_arg9) :=
  (W4_arr m ρ c 5).trans (edge_array (V3 m ρ) (launched m c main_arg0) (launched m c main_arg1) (launched m c main_arg3) (launched m c main_arg4)
    (launched m c main_arg6) (launched m c main_arg7) (launched m c main_arg8) (launched m c main_arg9) c
    (entry1_gathered m ρ c) (entry1_efeat m ρ c) (entry1_norm m ρ c) (entry1_wet m ρ c) (entry1_ebias m ρ c))

/-- The clipped root sum, region 0's second output, is still there at the edge region's exit. -/
theorem exit1_root : W4 m ρ c (Proc.devRef .tc main_v4_1)
    = val_main_v26 (F := Ideal) (launched m c main_arg0) (launched m c main_arg6) (launched m c main_arg7) (launched m c main_arg10) :=
  (W4_of_ne m ρ c main_v4_1 (by decide)).trans
    ((StableHlo.after_of_forall_not_mem (b := Proc.devRef .tc main_v4_1) _ _ (by stretch_keeps)).trans (exit0_root m ρ c))

/-- A buffer that is an array of neither region and that the first two stretches do not write holds its launch
    contents at the edge region's exit. -/
theorem exit1_launched (b : Ref sig .tc) (hb0 : ∀ w, Pipeline.arrRef spec0 w ≠ b) (hb1 : ∀ w, Pipeline.arrRef spec1 w ≠ b)
    (hw0 : ∀ op ∈ (hostOps0 : List (HloOp τ sig (Elt Ideal))), Proc.devRef .tc b ∉ op.writes)
    (hw1 : ∀ op ∈ (hostOps1 : List (HloOp τ sig (Elt Ideal))), Proc.devRef .tc b ∉ op.writes) :
    W4 m ρ c (Proc.devRef .tc b) = launched m c b :=
  (W4_of_ne m ρ c b hb1).trans ((StableHlo.after_of_forall_not_mem (b := Proc.devRef .tc b) _ _ hw1).trans (exit0_launched m ρ c b hb0 hw0))

/-! ## The result: the last host stretch over region 1's exit contents -/

/-- THE KERNEL'S RESULT ARRAY, read through the whole fold, is the reference's last stage at the launched arguments. -/
theorem kernel_result : W5 m ρ c (Proc.devRef .tc main_v19)
    = val_main_v30 (F := Ideal) (launched m c main_arg0) (launched m c main_arg1) (launched m c main_arg2) (launched m c main_arg3)
        (launched m c main_arg4) (launched m c main_arg5) (launched m c main_arg6) (launched m c main_arg7) (launched m c main_arg8)
        (launched m c main_arg9) (launched m c main_arg10) := by
  show StableHlo.after hostOps2 (W4 m ρ c) (Proc.devRef .tc main_v19) = _
  after_results
  rw [exit1_edge m ρ c, exit1_root m ρ c,
    exit1_launched m ρ c main_arg5 (by decide) (by decide) (by stretch_keeps) (by stretch_keeps),
    exit1_launched m ρ c main_arg2 (by decide) (by decide) (by stretch_keeps) (by stretch_keeps)]
  rfl

end Cert.GraphConv
end
-- ==== Proof.lean ====
/-
  A graph convolution, message passing over 1 600 000 edges between 100 000 nodes with 128 features, against its
  plain jnp statement. Both programs compute, on the extended reals,

      h     = nfeat · Wᵀ + b                                          (node features, [100000, 128])
      e     = norm ⊙ max (h[src] + (efeat · Weᵀ + be), 0)              (per-edge messages, [1600000, 128])
      rst   = segment_sum (e, dst) + max (h + root_emb, 0) / degs      (the result, [100000, 128])

  with the SAME host operations for the row gather `h[src]` (negative indices wrapped once, then the gather), for the
  scatter-add onto zeros, for the division by the broadcast degrees and for the final sum. The kernel differs from
  the reference only in how `h`, `max (h + root_emb, 0)` and `e` are produced: in two tiled regions — twenty row
  blocks of 5000 nodes, then 250 row blocks of 6400 edges — whose bodies multiply a block by the whole transposed
  weight into a zero accumulator and add a bias row viewed as a [1, 128] block, where the reference contracts the
  whole arrays at once and broadcasts the bias. On the extended reals a change of float format is the identity, the
  product into a zero accumulator is the plain sum over the contracted axis, and a row of a block is the row of
  the array at the block's offset; so each region's output array IS the reference's corresponding stage, entry by
  entry (no law beyond re-indexing a finite sum is used, hence no finiteness of the inputs either).

  The modules: the kernel's run with its result read at the last boundary's contents; one entry of each payload as
  a sum (one module per region); the reference's three stages at an entry; each region's blocks, their cover of the
  output array, and the array as the reference's stage; the walk from the result buffer back through the three host
  stretches and the two regions to the launched arguments; and below, the five claims.
-/
import proofs.«158468_j20864951124336_1_alg».proof.Defs
import proofs.«158468_j20864951124336_1_alg».proof.Proof.Gen.Kernel
import proofs.«158468_j20864951124336_1_alg».proof.Proof.Gen.Kernel.Skeleton
import proofs.«158468_j20864951124336_1_alg».proof.Proof.Gen.Kernel.Launch
import proofs.«158468_j20864951124336_1_alg».proof.Proof.Gen.Kernel.Points
import proofs.«158468_j20864951124336_1_alg».proof.Proof.Gen.Kernel.Frame
import proofs.«158468_j20864951124336_1_alg».proof.Proof.Gen.KernelIdeal
import proofs.«158468_j20864951124336_1_alg».proof.Proof.Gen.KernelIdeal.Skeleton
import proofs.«158468_j20864951124336_1_alg».proof.Proof.Gen.KernelIdeal.Launch
import proofs.«158468_j20864951124336_1_alg».proof.Proof.Gen.KernelIdeal.Points
import proofs.«158468_j20864951124336_1_alg».proof.Proof.Gen.KernelIdeal.Frame
import proofs.«158468_j20864951124336_1_alg».proof.Proof.Gen.ReferenceIdeal
import proofs.«158468_j20864951124336_1_alg».proof.Proof.Gen.ReferenceIdeal.Run
import proofs.«158468_j20864951124336_1_alg».proof.Proof.Gen.ReferenceIdeal.Read
import proofs.«158468_j20864951124336_1_alg».proof.Proof.Gen.Pre_finite_inputs
import proofs.«158468_j20864951124336_1_alg».proof.Proof.KernelRun
import proofs.«158468_j20864951124336_1_alg».proof.Proof.Fold
import Idealize.ShloMosaic.Adequacy
import Idealize.ShloMosaic.Init

noncomputable section

namespace Cert.Proof

open Idealize.ShloMosaic Idealize.SL.Sem

/-- At the ideal instance both programs end with the same result array: the kernel's is the reference's last stage
    at the kernel's launched arguments (the walk through its regions), the reference's run ends at that stage of its
    own arguments, and the two launch memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.GraphConv.kernel_result m ρ c), (h c).2⟩) (Cert.KernelIdeal.Whole.run_main m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact Cert.ReferenceIdeal.Read.val_main_v30_eq _ _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
